-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S50000x64 .f32) (main_arg1 : IVec S2x800000 32) (main_arg2 : FVec F S800000 .f32) (main_arg3 : FVec F S64x64 .f32) (main_arg4 : FVec F S64 .f32) (main_arg5 : FVec F S64x32 .f32) (main_arg6 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩

abbrev nBuf : Space → Nat
  | .hbm => 86
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x32, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x32, .f32⟩
  | .hbm, ⟨77, _⟩ => ⟨S850000x1, .f32⟩
  | .hbm, ⟨78, _⟩ => ⟨S850000x32, .f32⟩
  | .hbm, ⟨79, _⟩ => ⟨S850000x32, .f32⟩
  | .hbm, ⟨80, _⟩ => ⟨S_, .f32⟩
  | .hbm, ⟨81, _⟩ => ⟨S50000x32, .f32⟩
  | .hbm, ⟨82, _⟩ => ⟨S850000x1, .i32⟩
  | .hbm, ⟨83, _⟩ => ⟨S50000x32, .f32⟩
  | .hbm, ⟨84, _⟩ => ⟨S1x32, .f32⟩
  | .hbm, ⟨85, _⟩ => ⟨S50000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S50000x32.size a
  hwx1_3 : ∀ i : grid1.Coords, EltTy.bits .f32 = 32 ∨ (Rect.block (s := S50000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩

abbrev nBuf : Space → Nat
  | .hbm => 95
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S50000x32, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x32, .f32⟩
  | .hbm, ⟨82, _⟩ => ⟨S850000x1, .f32⟩
  | .hbm, ⟨83, _⟩ => ⟨S850000x32, .f32⟩
  | .hbm, ⟨84, _⟩ => ⟨S850000x32, .f32⟩
  | .hbm, ⟨85, _⟩ => ⟨S_, .f32⟩
  | .hbm, ⟨86, _⟩ => ⟨S50000x32, .f32⟩
  | .hbm, ⟨87, _⟩ => ⟨S850000x1, .i32⟩
  | .hbm, ⟨88, _⟩ => ⟨S50000x32, .f32⟩
  | .hbm, ⟨89, _⟩ => ⟨S1x32, .f32⟩
  | .hbm, ⟨90, _⟩ => ⟨S50000x32, .f32⟩
  | .hbm, ⟨91, _⟩ => ⟨S50000x32, .f32⟩
  | .hbm, ⟨92, _⟩ => ⟨S_, .f32⟩
  | .hbm, ⟨93, _⟩ => ⟨S50000x32, .f32⟩
  | .hbm, ⟨94, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.Stages.lean ====
/-
  The reference program as a composition of a few named stages. With n = 50000 nodes, E = 850000 edges (the 800000
  given ones followed by one self loop per node), a feature matrix h : [n, d], edge endpoints S, D : [E] and an edge
  weight N : [E]:
    srcOf / dstOf   the two rows of the edge index, each followed by 0 … n-1;
    normOf S D w    the symmetric normalisation dinv[S] · w' · dinv[D], w' the weights followed by n ones, dinv the
                    inverse square root of the weighted in-degree where that is positive and 0 elsewhere;
    dense1, dense2  the two dense transforms, X · W;
    agg64, agg32    message passing: row e of the messages is row S[e] of h scaled by N[e], summed into row D[e];
    hidden, outAct  add the bias along the rows, then take the maximum with 0.
  The reference's result is outAct (agg32 (dense2 (hidden (agg64 (dense1 x W1) …) b1) W2) …) b2 (`res_eq`): the
  stages are the reference's own operations, grouped, so this holds by unfolding.
-/
import proofs.«146499_j31370441130066_1_alg».proof.Proof.Gen.ReferenceIdeal.Run

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- The source endpoints: row 0 of the edge index, then the self loops 0 … n-1. -/
def srcOf (x1 : (⟨S2x800000, .i32⟩ : BufTy).Contents (Elt F)) : (⟨S850000, .i32⟩ : BufTy).Contents (Elt F) :=
  (concatenate S850000 0 [⟨S800000, (shapeCast _ (extractStridedSlice S1x800000 ![0, 0] x1 slices_S2x800000_S1x800000_0_0) shapeCasts_S1x800000_S800000)⟩, ⟨S50000, (iotaInDim S50000 32 0)⟩] concatenates_S800000_S50000_S850000_d0)

/-- The destination endpoints: row 1 of the edge index, then the self loops 0 … n-1. -/
def dstOf (x1 : (⟨S2x800000, .i32⟩ : BufTy).Contents (Elt F)) : (⟨S850000, .i32⟩ : BufTy).Contents (Elt F) :=
  (concatenate S850000 0 [⟨S800000, (shapeCast _ (extractStridedSlice S1x800000 ![1, 0] x1 slices_S2x800000_S1x800000_1_0) shapeCasts_S1x800000_S800000)⟩, ⟨S50000, (iotaInDim S50000 32 0)⟩] concatenates_S800000_S50000_S850000_d0)

set_option maxRecDepth 8192 in
/-- The edge normalisation dinv[S] · w' · dinv[D] over the edges followed by the self loops of weight one. -/
def normOf (S D : (⟨S850000, .i32⟩ : BufTy).Contents (Elt F)) (x2 : (⟨S800000, .f32⟩ : BufTy).Contents (Elt F)) : (⟨S850000, .f32⟩ : BufTy).Contents (Elt F) :=
  (mulf (mulf (Host.gather gather_S50000_S850000x1_S850000_n_0_n_n_0_1_1 (select (cmpf .ogt (Host.scatterAdd scatter_S50000_S850000x1_S850000_n_0_0_1 (broadcastInDim S50000 ![] bcast_S_S50000 (constant S_ .f32 0x00000000#32)) (broadcastInDim S850000x1 ![0] bcast_S850000_S850000x1_0 D) (concatenate S850000 0 [⟨S800000, x2⟩, ⟨S50000, (broadcastInDim S50000 ![] bcast_S_S50000 (constant S_ .f32 0x3F800000#32))⟩] concatenates_S800000_S50000_S850000_d0)) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 D) (concatenate S850000 0 [⟨S800000, x2⟩, ⟨S50000, (broadcastInDim S50000 ![] bcast_S_S50000 (constant S_ .f32 0x3F800000#32))⟩] concatenates_S800000_S50000_S850000_d0))) (broadcastInDim S50000 ![] bcast_S_S50000 (id (constant S_ .f32 0x00000000#32)))) (broadcastInDim S850000x1 ![0] bcast_S850000_S850000x1_0 (select (cmpi .slt S (broadcastInDim S850000 ![] bcast_S_S850000 (constantI S_ 32 0#32))) (addi S (broadcastInDim S850000 ![] bcast_S_S850000 (constantI S_ 32 50000#32))) S))) (concatenate S850000 0 [⟨S800000, x2⟩, ⟨S50000, (broadcastInDim S50000 ![] bcast_S_S50000 (constant S_ .f32 0x3F800000#32))⟩] concatenates_S800000_S50000_S850000_d0)) (Host.gather gather_S50000_S850000x1_S850000_n_0_n_n_0_1_1 (select (cmpf .ogt (Host.scatterAdd scatter_S50000_S850000x1_S850000_n_0_0_1 (broadcastInDim S50000 ![] bcast_S_S50000 (constant S_ .f32 0x00000000#32)) (broadcastInDim S850000x1 ![0] bcast_S850000_S850000x1_0 D) (concatenate S850000 0 [⟨S800000, x2⟩, ⟨S50000, (broadcastInDim S50000 ![] bcast_S_S50000 (constant S_ .f32 0x3F800000#32))⟩] concatenates_S800000_S50000_S850000_d0)) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 D) (concatenate S850000 0 [⟨S800000, x2⟩, ⟨S50000, (broadcastInDim S50000 ![] bcast_S_S50000 (constant S_ .f32 0x3F800000#32))⟩] concatenates_S800000_S50000_S850000_d0))) (broadcastInDim S50000 ![] bcast_S_S50000 (id (constant S_ .f32 0x00000000#32)))) (broadcastInDim S850000x1 ![0] bcast_S850000_S850000x1_0 (select (cmpi .slt D (broadcastInDim S850000 ![] bcast_S_S850000 (constantI S_ 32 0#32))) (addi D (broadcastInDim S850000 ![] bcast_S_S850000 (constantI S_ 32 50000#32))) D))))

/-- The first dense transform, [n, 64] · [64, 64]. -/
def dense1 (x : (⟨S50000x64, .f32⟩ : BufTy).Contents (Elt F)) (w : (⟨S64x64, .f32⟩ : BufTy).Contents (Elt F)) : (⟨S50000x64, .f32⟩ : BufTy).Contents (Elt F) :=
  Host.dotGeneral dot_S50000x64_S64x64_S50000x64_1_0_0_1_n_n none x w

/-- The second dense transform, [n, 64] · [64, 32]. -/
def dense2 (h : (⟨S50000x64, .f32⟩ : BufTy).Contents (Elt F)) (w : (⟨S64x32, .f32⟩ : BufTy).Contents (Elt F)) : (⟨S50000x32, .f32⟩ : BufTy).Contents (Elt F) :=
  Host.dotGeneral dot_S50000x64_S64x32_S50000x32_1_0_0_1_n_n none h w

/-- Message passing on 64 features: gather the rows of `h` at the (wrapped) sources, scale by the edge weight, add
    into the rows at the destinations. -/
def agg64 (h : (⟨S50000x64, .f32⟩ : BufTy).Contents (Elt F)) (S D : (⟨S850000, .i32⟩ : BufTy).Contents (Elt F)) (N : (⟨S850000, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 D) (mulf (Host.gather gather_S50000x64_S850000x1_S850000x64_1_0_n_n_0_1_164 h (broadcastInDim S850000x1 ![0] bcast_S850000_S850000x1_0 (select (cmpi .slt S (broadcastInDim S850000 ![] bcast_S_S850000 (constantI S_ 32 0#32))) (addi S (broadcastInDim S850000 ![] bcast_S_S850000 (constantI S_ 32 50000#32))) S))) (broadcastInDim S850000x64 ![0, 1] bcast_S850000x1_S850000x64_0_1 (broadcastInDim S850000x1 ![0] bcast_S850000_S850000x1_0 N)))

/-- The same on 32 features. -/
def agg32 (h : (⟨S50000x32, .f32⟩ : BufTy).Contents (Elt F)) (S D : (⟨S850000, .i32⟩ : BufTy).Contents (Elt F)) (N : (⟨S850000, .f32⟩ : BufTy).Contents (Elt F)) : (⟨S50000x32, .f32⟩ : BufTy).Contents (Elt F) :=
  Host.scatterAdd scatter_S50000x32_S850000x1_S850000x32_1_0_0_1 (broadcastInDim S50000x32 ![] bcast_S_S50000x32 (constant S_ .f32 0x00000000#32)) (broadcastInDim S850000x1 ![0] bcast_S850000_S850000x1_0 D) (mulf (Host.gather gather_S50000x32_S850000x1_S850000x32_1_0_n_n_0_1_132 h (broadcastInDim S850000x1 ![0] bcast_S850000_S850000x1_0 (select (cmpi .slt S (broadcastInDim S850000 ![] bcast_S_S850000 (constantI S_ 32 0#32))) (addi S (broadcastInDim S850000 ![] bcast_S_S850000 (constantI S_ 32 50000#32))) S))) (broadcastInDim S850000x32 ![0, 1] bcast_S850000x1_S850000x32_0_1 (broadcastInDim S850000x1 ![0] bcast_S850000_S850000x1_0 N)))

/-- The hidden activation: the bias added along the rows, then the maximum with zero. -/
def hidden (A : (⟨S50000x64, .f32⟩ : BufTy).Contents (Elt F)) (b : (⟨S64, .f32⟩ : BufTy).Contents (Elt F)) : (⟨S50000x64, .f32⟩ : BufTy).Contents (Elt F) :=
  maximumf (addf A (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- The output activation: the bias added along the rows, then the maximum with zero. -/
def outAct (A : (⟨S50000x32, .f32⟩ : BufTy).Contents (Elt F)) (b : (⟨S32, .f32⟩ : BufTy).Contents (Elt F)) : (⟨S50000x32, .f32⟩ : BufTy).Contents (Elt F) :=
  maximumf (addf A (broadcastInDim S50000x32 ![0, 1] bcast_S1x32_S50000x32_0_1 (broadcastInDim S1x32 ![1] bcast_S32_S1x32_1 b))) (broadcastInDim S50000x32 ![] bcast_S_S50000x32 (constant S_ .f32 0x00000000#32))

/-- The whole network over the seven arguments. -/
def net (x0 : (⟨S50000x64, .f32⟩ : BufTy).Contents (Elt F)) (x1 : (⟨S2x800000, .i32⟩ : BufTy).Contents (Elt F)) (x2 : (⟨S800000, .f32⟩ : BufTy).Contents (Elt F)) (x3 : (⟨S64x64, .f32⟩ : BufTy).Contents (Elt F))
    (x4 : (⟨S64, .f32⟩ : BufTy).Contents (Elt F)) (x5 : (⟨S64x32, .f32⟩ : BufTy).Contents (Elt F)) (x6 : (⟨S32, .f32⟩ : BufTy).Contents (Elt F)) : (⟨S50000x32, .f32⟩ : BufTy).Contents (Elt F) :=
  outAct (agg32 (dense2 (hidden (agg64 (dense1 x0 x3) (srcOf x1) (dstOf x1) (normOf (srcOf x1) (dstOf x1) x2)) x4) x5)
    (srcOf x1) (dstOf x1) (normOf (srcOf x1) (dstOf x1) x2)) x6

set_option maxRecDepth 8192 in
/-- The reference's result is the network of its arguments: the stages are its operations, grouped. -/
theorem res_eq (m : (ℓ : Loc nD τ sig) → Buf (Elt F) ℓ) (c : Dev nD) :
    Cert.ReferenceIdeal.Value.res_main_v67 m c = net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v67 net outAct agg32 dense2 hidden agg64 dense1 normOf srcOf dstOf
  rfl

end Cert.ReferenceIdeal.Stage

end
-- ==== Proof.StagesNorm.lean ====
/-
  The edge normalisation in three steps: the edge weights followed by one unit weight per self loop (`ewOf`), the
  weighted in-degree of every node (`degOf`: the weights summed into their destinations), and its inverse square
  root where the degree is positive, zero elsewhere (`dinvOf`). The normalisation of edge e is
  dinv[S e] · w' e · dinv[D e], with an endpoint below zero wrapped by the number of nodes (`wrapIdx`).
-/
import proofs.«146499_j31370441130066_1_alg».proof.Proof.Stages

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- The edge weights, then weight one for each self loop. -/
def ewOf (x2 : (⟨S800000, .f32⟩ : BufTy).Contents (Elt F)) : (⟨S850000, .f32⟩ : BufTy).Contents (Elt F) :=
  concatenate S850000 0 [⟨S800000, x2⟩, ⟨S50000, (broadcastInDim S50000 ![] bcast_S_S50000 (constant S_ .f32 0x3F800000#32))⟩] concatenates_S800000_S50000_S850000_d0

/-- The weighted in-degree: every edge's weight added at its destination. -/
def degOf (D : (⟨S850000, .i32⟩ : BufTy).Contents (Elt F)) (w : (⟨S850000, .f32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 D) w

/-- The inverse square root of a positive degree, zero for the others. -/
def dinvOf (g : (⟨S50000, .f32⟩ : BufTy).Contents (Elt F)) : (⟨S50000, .f32⟩ : BufTy).Contents (Elt F) :=
  select (cmpf .ogt g (broadcastInDim S50000 ![] bcast_S_S50000 (constant S_ .f32 0x00000000#32))) (Host.rsqrt g) (broadcastInDim S50000 ![] bcast_S_S50000 (id (constant S_ .f32 0x00000000#32)))

/-- An endpoint below zero counts from the end: the number of nodes is added to it. -/
def wrapIdx (S : (⟨S850000, .i32⟩ : BufTy).Contents (Elt F)) : (⟨S850000, .i32⟩ : BufTy).Contents (Elt F) :=
  select (cmpi .slt S (broadcastInDim S850000 ![] bcast_S_S850000 (constantI S_ 32 0#32))) (addi S (broadcastInDim S850000 ![] bcast_S_S850000 (constantI S_ 32 50000#32))) S

/-- Edge e's normalisation from the inverse-root degrees `v`: v[S e] · w e · v[D e]. -/
def normFrom (v : (⟨S50000, .f32⟩ : BufTy).Contents (Elt F)) (S D : (⟨S850000, .i32⟩ : BufTy).Contents (Elt F)) (w : (⟨S850000, .f32⟩ : BufTy).Contents (Elt F)) : (⟨S850000, .f32⟩ : BufTy).Contents (Elt F) :=
  mulf (mulf (Host.gather gather_S50000_S850000x1_S850000_n_0_n_n_0_1_1 v (broadcastInDim S850000x1 ![0] bcast_S850000_S850000x1_0 (wrapIdx S))) w) (Host.gather gather_S50000_S850000x1_S850000_n_0_n_n_0_1_1 v (broadcastInDim S850000x1 ![0] bcast_S850000_S850000x1_0 (wrapIdx D)))

set_option maxRecDepth 8192 in
/-- The normalisation is those steps composed. -/
theorem normOf_eq (S D : (⟨S850000, .i32⟩ : BufTy).Contents (Elt F)) (x2 : (⟨S800000, .f32⟩ : BufTy).Contents (Elt F)) :
    normOf (F := F) S D x2 = normFrom (dinvOf (degOf D (ewOf x2))) S D (ewOf x2) := by
  unfold normOf normFrom dinvOf degOf ewOf wrapIdx
  rfl

end Cert.ReferenceIdeal.Stage

end
-- ==== Proof.LibTRef.lean ====
/-
  A typed reference's two transports cancel. A module-local function's operation reads each operand by carrying the
  buffer's contents to the value's type and writes its result by carrying it back; the value's type IS the buffer's, so a
  result read by the next operation is the value itself.
-/
import Idealize.ShloMosaic.Lib.StableHlo

namespace Idealize.ShloMosaic.StableHlo.TRef

/-- Contents carried to a buffer's own type and back are themselves. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Idealize.ShloMosaic.StableHlo.TRef
-- ==== Proof.StagesIdx.lean ====
/-
  The stages of the reference read at an index, over the extended reals. A dense transform's entry (r, q) is the
  sum over k < 64 of X (r, k) · W (k, q); an activation's entry (r, q) is max (A (r, q) + b q) 0.
-/
import proofs.«146499_j31370441130066_1_alg».proof.Proof.Stages
import proofs.«146499_j31370441130066_1_alg».proof.Proof.Gen.ReferenceIdeal.Read

noncomputable section

namespace Cert.ReferenceIdeal.Stage

open Cert.ReferenceIdeal Cert.ReferenceIdeal.Gen Cert.ReferenceIdeal.Read Idealize.ShloMosaic Idealize.ShloMosaic.TcCoe Idealize.SL.Sem Idealize.ShloMosaic.StableHlo

/-- Entry (r, q) of the first dense transform: the sum over k of X (r, k) · W (k, q). -/
theorem dense1_apply (x : (⟨S50000x64, .f32⟩ : BufTy).Contents (Elt Ideal)) (w : (⟨S64x64, .f32⟩ : BufTy).Contents (Elt Ideal)) (i : S50000x64.Idx) :
    dense1 (F := Ideal) x w i = ∑ k : Fin 64, x (lidx_main_v32 i k) * w (ridx_main_v32 i k) :=
  val_main_v32_apply x w i

/-- Entry (r, q) of the second dense transform: the sum over k of H (r, k) · W (k, q). -/
theorem dense2_apply (h : (⟨S50000x64, .f32⟩ : BufTy).Contents (Elt Ideal)) (w : (⟨S64x32, .f32⟩ : BufTy).Contents (Elt Ideal)) (i : S50000x32.Idx) :
    dense2 (F := Ideal) h w i = ∑ k : Fin 64, h (lidx_main_v50 i k) * w (ridx_main_v50 i k) := by
  unfold dense2
  simp only [Host.dotGeneral]
  rw [Ideal.dotGeneral_apply, ← Equiv.sum_comp (ValueIdx.contrEquiv1 dot_S50000x64_S64x32_S50000x32_1_0_0_1_n_n 64 rfl rfl).symm]
  refine Finset.sum_congr rfl fun k _ => ?_
  have hk := ValueIdx.contrEquiv1_symm_val dot_S50000x64_S64x32_S50000x32_1_0_0_1_n_n 64 rfl rfl k
  have el : dot_S50000x64_S64x32_S50000x32_1_0_0_1_n_n.lhsIdx i ((ValueIdx.contrEquiv1 dot_S50000x64_S64x32_S50000x32_1_0_0_1_n_n 64 rfl rfl).symm k) = lidx_main_v50 i k := funext fun a => Fin.ext (by
    match a with
    | ⟨0, _⟩ => exact lhs_main_v50_0 _ _
    | ⟨1, _⟩ => exact (lhs_main_v50_1 _ _).trans hk)
  have er : dot_S50000x64_S64x32_S50000x32_1_0_0_1_n_n.rhsIdx i ((ValueIdx.contrEquiv1 dot_S50000x64_S64x32_S50000x32_1_0_0_1_n_n 64 rfl rfl).symm k) = ridx_main_v50 i k := funext fun a => Fin.ext (by
    match a with
    | ⟨0, _⟩ => exact (rhs_main_v50_0 _ _).trans hk
    | ⟨1, _⟩ => exact rhs_main_v50_1 _ _)
  rw [el, er]

/-- Entry (r, q) of the hidden activation: max (A (r, q) + b q) 0. -/
theorem hidden_apply (A : (⟨S50000x64, .f32⟩ : BufTy).Contents (Elt Ideal)) (b : (⟨S64, .f32⟩ : BufTy).Contents (Elt Ideal)) (i : S50000x64.Idx) :
    hidden (F := Ideal) A b i = max (A i + b (idx_main_v46 (idx_main_v47 i))) (Ideal.ofBits .f32 0x00000000#32) := by
  show max (A i + val_main_v47 (F := Ideal) b i) (val_main_call1_v0 (F := Ideal) i) = _
  rw [val_main_v47_apply, val_main_v46_apply, val_main_call1_v0_apply]
  rfl

/-- Entry (r, q) of the output activation: max (A (r, q) + b q) 0. -/
theorem outAct_apply (A : (⟨S50000x32, .f32⟩ : BufTy).Contents (Elt Ideal)) (b : (⟨S32, .f32⟩ : BufTy).Contents (Elt Ideal)) (i : S50000x32.Idx) :
    outAct (F := Ideal) A b i = max (A i + b (idx_main_v64 (idx_main_v65 i))) (Ideal.ofBits .f32 0x00000000#32) := by
  show max (A i + val_main_v65 (F := Ideal) b i) (val_main_call2_v0 (F := Ideal) i) = _
  rw [val_main_v65_apply, val_main_v64_apply, val_main_call2_v0_apply]
  rfl

end Cert.ReferenceIdeal.Stage

end
-- ==== Proof.Region0.lean ====
/-
  Region 0, the first dense transform. At grid point t the body multiplies rows 5000·t … 5000·t + 4999 of X by the
  whole of W1 into a zero accumulator; at the extended reals a change of float format is the identity, so entry (r, q)
  of the block is the sum over k of X (5000·t + r, k) · W1 (k, q): block t of the product X · W1. The ten blocks tile
  the rows, so the result array ends holding X · W1.
-/
import proofs.«146499_j31370441130066_1_alg».proof.Proof.Gen.KernelIdeal.Frame
import proofs.«146499_j31370441130066_1_alg».proof.Proof.StagesIdx
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen

theorem hz : (![0, 0] : Fin 2 → Nat) = fun _ => 0 := funext fun a => by fin_cases a <;> rfl

/-! ## One block: the body's product at an entry -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Row r of the block's left operand at column k. -/
abbrev lB (y : S5000x64.Idx) (k : Fin 64) : S5000x64.Idx := fun a => match a with
  | ⟨0, _⟩ => ⟨(y 0).val, (y 0).isLt⟩
  | ⟨1, _⟩ => ⟨k.val, k.isLt⟩
/-- Row k of the weights at column q. -/
abbrev rB (y : S5000x64.Idx) (k : Fin 64) : S64x64.Idx := fun a => match a with
  | ⟨0, _⟩ => ⟨k.val, k.isLt⟩
  | ⟨1, _⟩ => ⟨(y 1).val, (y 1).isLt⟩

/-- The body's stored value at entry (r, q): the sum over k of x (r, k) · w (k, q). -/
theorem pay_apply (x : Vec Ideal S5000x64 .f32) (w : Vec Ideal S64x64 .f32) (y : S5000x64.Idx) :
    k0_pay1 (F := Ideal) x w y = ∑ k : Fin 64, x (lB y k) * w (rB y k) := by
  unfold k0_pay1 matmul
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx y ((ValueIdx.contrEquiv1 dot_S5000x64_S64x64_S5000x64_1_0_0_1_n_n 64 rfl rfl).symm k) = lB y k := funext fun a => Fin.ext (by
    match a with
    | ⟨0, _⟩ => exact lhs_0 _ _
    | ⟨1, _⟩ => exact (lhs_1 _ _).trans hk)
  have er : dot_S5000x64_S64x64_S5000x64_1_0_0_1_n_n.rhsIdx y ((ValueIdx.contrEquiv1 dot_S5000x64_S64x64_S5000x64_1_0_0_1_n_n 64 rfl rfl).symm k) = rB y k := funext fun a => Fin.ext (by
    match a with
    | ⟨0, _⟩ => exact (rhs_0 _ _).trans hk
    | ⟨1, _⟩ => exact rhs_1 _ _)
  rw [el, er]
  rfl

/-! ## From blocks to the array -/

/-- The index maps over the grid: the rows' block moves with the output's, every other block index is 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- What point t writes back is block t of the product of the two arrays the region finds. -/
theorem flushed_eq (c : Dev nD) (t : Fin cfg0.N) :
    (dat0 V c).flushed 2 t = ((cfg0.win 2).blk t).view.read (Elt Ideal) (Cert.ReferenceIdeal.Stage.dense1 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx_facts t
  funext j
  show k0_pay1 (F := Ideal) (iblk0 V c 0 t) (iblk0 V c 1 t) j = Cert.ReferenceIdeal.Stage.dense1 (F := Ideal) (V c main_arg0) (V c main_arg3) (((cfg0.win 2).blk t).view.emb j)
  rw [pay_apply, Cert.ReferenceIdeal.Stage.dense1_apply]
  refine Finset.sum_congr rfl fun k _ => ?_
  have il : ((cfg0.win 0).blk t).view.emb (lB j k) = Cert.ReferenceIdeal.Read.lidx_main_v32 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have ir : ((cfg0.win 1).blk t).view.emb (rB j k) = Cert.ReferenceIdeal.Read.ridx_main_v32 (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  have hl : (iblk0 V c 0 t : Vec Ideal S5000x64 .f32) (lB j k) = (V c main_arg0 : Vec Ideal S50000x64 .f32) (Cert.ReferenceIdeal.Read.lidx_main_v32 (((cfg0.win 2).blk t).view.emb j) k) :=
    congrArg (V c main_arg0 : Vec Ideal S50000x64 .f32) il
  have hr : (iblk0 V c 1 t : Vec Ideal S64x64 .f32) (rB j k) = (V c main_arg3 : Vec Ideal S64x64 .f32) (Cert.ReferenceIdeal.Read.ridx_main_v32 (((cfg0.win 2).blk t).view.emb j) k) :=
    congrArg (V c main_arg3 : Vec Ideal S64x64 .f32) ir
  rw [hl, hr]

/-- An index of the array is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Row r lies in the block of point r / 5000: the blocks cover the array. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region: the product of the two arrays the region finds. -/
theorem final (c : Dev nD) :
    (dat0 V c).arrAt 2 cfg0.N = Cert.ReferenceIdeal.Stage.dense1 (F := Ideal) (V c main_arg0) (V c main_arg3) :=
  (dat0 V c).arrAt_eq_of_cover 2 _ (fun t _ => flushed_eq V c t) cover

end Cert.KernelIdeal.Region0

end
-- ==== Proof.Region1.lean ====
/-
  Region 1, the hidden activation fused with the second dense transform. At grid point t the body adds the bias row
  to rows 5000·t … 5000·t + 4999 of the aggregated features, takes the maximum with zero, and multiplies by the whole
  of W2 into a zero accumulator; a change of float format is the identity at the extended reals. Entry (r, q) of the
  block is the sum over k of max (A (5000·t + r, k) + b k) 0 · W2 (k, q): block t of hidden(A, b) · W2. The ten blocks
  tile the rows.
-/
import proofs.«146499_j31370441130066_1_alg».proof.Proof.Gen.KernelIdeal.Frame
import proofs.«146499_j31370441130066_1_alg».proof.Proof.StagesIdx
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen

theorem hz : (![0, 0] : Fin 2 → Nat) = fun _ => 0 := funext fun a => by fin_cases a <;> rfl

/-! ## One block: the body's product at an entry -/

theorem lhs_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Row r of the block's left operand at column k. -/
abbrev lB (y : S5000x32.Idx) (k : Fin 64) : S5000x64.Idx := fun a => match a with
  | ⟨0, _⟩ => ⟨(y 0).val, (y 0).isLt⟩
  | ⟨1, _⟩ => ⟨k.val, k.isLt⟩
/-- The bias row's entry under column k. -/
abbrev bB (k : Fin 64) : S1x64.Idx := fun a => match a with
  | ⟨0, _⟩ => ⟨0, Nat.one_pos⟩
  | ⟨1, _⟩ => ⟨k.val, k.isLt⟩
/-- Row k of the weights at column q. -/
abbrev rB (y : S5000x32.Idx) (k : Fin 64) : S64x32.Idx := fun a => match a with
  | ⟨0, _⟩ => ⟨k.val, k.isLt⟩
  | ⟨1, _⟩ => ⟨(y 1).val, (y 1).isLt⟩

/-- The body's stored value at entry (r, q): the sum over k of max (x (r, k) + b (0, k)) 0 · w (k, q). -/
theorem pay_apply (x : Vec Ideal S5000x64 .f32) (b : Vec Ideal S1x64 .f32) (w : Vec Ideal S64x32 .f32) (y : S5000x32.Idx) :
    k1_pay1 (F := Ideal) x b w y = ∑ k : Fin 64, max (x (lB y k) + b (bB k)) (Ideal.ofBits .f32 0x00000000#32) * w (rB y k) := by
  unfold k1_pay1 matmul
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx y ((ValueIdx.contrEquiv1 dot_S5000x64_S64x32_S5000x32_1_0_0_1_n_n 64 rfl rfl).symm k) = lB y k := funext fun a => Fin.ext (by
    match a with
    | ⟨0, _⟩ => exact lhs_0 _ _
    | ⟨1, _⟩ => exact (lhs_1 _ _).trans hk)
  have er : dot_S5000x64_S64x32_S5000x32_1_0_0_1_n_n.rhsIdx y ((ValueIdx.contrEquiv1 dot_S5000x64_S64x32_S5000x32_1_0_0_1_n_n 64 rfl rfl).symm k) = rB y k := funext fun a => Fin.ext (by
    match a with
    | ⟨0, _⟩ => exact (rhs_0 _ _).trans hk
    | ⟨1, _⟩ => exact rhs_1 _ _)
  rw [el, er]
  show max (shapeCast S5000x64 x shapeCasts_S5000x64_S5000x64 (lB y k) + broadcastTo S5000x64 (shapeCast S1x64 b shapeCasts_S1x64_S1x64) broadcasts_S1x64_S5000x64 (lB y k)) _ * w (rB y k) = _
  rw [shapeCast_self, shapeCast_self, broadcastTo_apply b broadcasts_S1x64_S5000x64 (lB y k) (bB k) (fun a => match a with
    | ⟨0, _⟩ => by show 0 = if (1 : Nat) = 1 then 0 else _; rw [if_pos rfl]
    | ⟨1, _⟩ => by show k.val = if (64 : Nat) = 1 then 0 else k.val; rw [if_neg (by decide)])]
  rfl

/-! ## From blocks to the array -/

theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

theorem idx_onto : ∀ q0 : Fin 10, ∃ t : Fin cfg1.N, win1_3.index t = ![q0.val, 0] :=
  (by decide +kernel : ∀ q0 : Fin 10, ∃ t : Fin grid1.N, win1_3.index t = ![q0.val, 0])

variable (V : (c : Dev nD) → (b : Ref sig .tc) → Buf (Elt Ideal) ((c : Thread nD τ).loc b))

/-- What point t writes back is block t of hidden(A, B) · W2 over the arrays the region finds, when the bias operand
    it finds is the bias vector `B` viewed as one row. -/
theorem flushed_eq (c : Dev nD) (B : Vec Ideal S64 .f32) (hB : (V c main_v46 : Vec Ideal S1x64 .f32) = shapeCast S1x64 B shapeCasts_S64_S1x64) (t : Fin cfg1.N) :
    (dat1 V c).flushed 3 t = ((cfg1.win 3).blk t).view.read (Elt Ideal) (Cert.ReferenceIdeal.Stage.dense2 (F := Ideal) (Cert.ReferenceIdeal.Stage.hidden (F := Ideal) (V c main_v45) B) (V c main_arg5)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x32) hz]
  obtain ⟨e0, e1, e2, e3, e4, e5, e6, e7⟩ := idx_facts t
  funext j
  show k1_pay1 (F := Ideal) (iblk1 V c 0 t) (iblk1 V c 1 t) (iblk1 V c 2 t) j = Cert.ReferenceIdeal.Stage.dense2 (F := Ideal) (Cert.ReferenceIdeal.Stage.hidden (F := Ideal) (V c main_v45) B) (V c main_arg5) (((cfg1.win 3).blk t).view.emb j)
  rw [pay_apply, Cert.ReferenceIdeal.Stage.dense2_apply]
  refine Finset.sum_congr rfl fun k _ => ?_
  rw [Cert.ReferenceIdeal.Stage.hidden_apply]
  have il : ((cfg1.win 0).blk t).view.emb (lB j k) = Cert.ReferenceIdeal.Read.lidx_main_v50 (((cfg1.win 3).blk t).view.emb j) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  have ir : ((cfg1.win 2).blk t).view.emb (rB j k) = Cert.ReferenceIdeal.Read.ridx_main_v50 (((cfg1.win 3).blk t).view.emb j) k := by
    funext a; apply Fin.ext
    match a with
    | ⟨0, _⟩ => show win1_2.index t (0 : Fin 2) * 64 + 1 * k.val = k.val; omega
    | ⟨1, _⟩ => show win1_2.index t (1 : Fin 2) * 32 + 1 * (j 1).val = win1_3.index t (1 : Fin 2) * 32 + 1 * (j 1).val; omega
  have ha : (iblk1 V c 0 t : Vec Ideal S5000x64 .f32) (lB j k) = (V c main_v45 : Vec Ideal S50000x64 .f32) (Cert.ReferenceIdeal.Read.lidx_main_v50 (((cfg1.win 3).blk t).view.emb j) k) :=
    congrArg (V c main_v45 : Vec Ideal S50000x64 .f32) il
  have hw : (iblk1 V c 2 t : Vec Ideal S64x32 .f32) (rB j k) = (V c main_arg5 : Vec Ideal S64x32 .f32) (Cert.ReferenceIdeal.Read.ridx_main_v50 (((cfg1.win 3).blk t).view.emb j) k) :=
    congrArg (V c main_arg5 : Vec Ideal S64x32 .f32) ir
  have hb : (iblk1 V c 1 t : Vec Ideal S1x64 .f32) (bB k) = B (Cert.ReferenceIdeal.Read.idx_main_v46 (Cert.ReferenceIdeal.Read.idx_main_v47 (Cert.ReferenceIdeal.Read.lidx_main_v50 (((cfg1.win 3).blk t).view.emb j) k))) := by
    show (V c main_v46 : Vec Ideal S1x64 .f32) (((cfg1.win 1).blk t).view.emb (bB k)) = _
    rw [hB]
    refine shapeCast_apply B shapeCasts_S64_S1x64 _ _ ?_
    rw [Shape.rowMajor_val_one, Shape.rowMajor_val_two]
    show k.val = (win1_1.index t (0 : Fin 2) * 1 + 1 * 0) * 64 + (win1_1.index t (1 : Fin 2) * 64 + 1 * k.val)
    omega
  rw [ha, hb, hw]

theorem mem_blk (t : Fin cfg1.N) (i : S50000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v47).slice (win1_3.rect t)).set ↔ _
  rw [View.set_slice_whole, Rect.mem_set_unit]
  exact Iff.rfl

/-- Row r lies in the block of point r / 5000: the blocks cover the array. -/
theorem cover (i : S50000x32.Idx) : ∃ t : Fin cfg1.N, (cfg1.win 3).flush t = true ∧ i ∈ ((cfg1.win 3).blk t).view.set := by
  have hi0 : (i 0).val < 50000 := (i 0).isLt
  have hi1 : (i 1).val < 32 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-- The result array after the region: hidden(A, B) · W2 over the arrays the region finds. -/
theorem final (c : Dev nD) (B : Vec Ideal S64 .f32) (hB : (V c main_v46 : Vec Ideal S1x64 .f32) = shapeCast S1x64 B shapeCasts_S64_S1x64) :
    (dat1 V c).arrAt 3 cfg1.N = Cert.ReferenceIdeal.Stage.dense2 (F := Ideal) (Cert.ReferenceIdeal.Stage.hidden (F := Ideal) (V c main_v45) B) (V c main_arg5) :=
  (dat1 V c).arrAt_eq_of_cover 3 _ (fun t _ => flushed_eq V c B hB t) cover

end Cert.KernelIdeal.Region1

end
-- ==== Proof.Region2.lean ====
/-
  Region 2, the output activation. At grid point t the body adds the bias row to rows 5000·t … 5000·t + 4999 of the
  aggregated features and takes the maximum with zero: entry (r, q) of the block is max (A (5000·t + r, q) + b q) 0,
  block t of the output activation of the whole array. The ten blocks tile the rows.
-/
import proofs.«146499_j31370441130066_1_alg».proof.Proof.Gen.KernelIdeal.Frame
import proofs.«146499_j31370441130066_1_alg».proof.Proof.StagesIdx
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen

theorem hz : (![0, 0] : Fin 2 → Nat) = fun _ => 0 := funext fun a => by fin_cases a <;> rfl

/-! ## One block -/

/-- The bias row's entry under column q. -/
abbrev bB (y : S5000x32.Idx) : S1x32.Idx := fun a => match a with
  | ⟨0, _⟩ => ⟨0, Nat.one_pos⟩
  | ⟨1, _⟩ => ⟨(y 1).val, (y 1).isLt⟩

/-- The body's stored value at entry (r, q): max (x (r, q) + b (0, q)) 0. -/
theorem pay_apply (x : Vec Ideal S5000x32 .f32) (b : Vec Ideal S1x32 .f32) (y : S5000x32.Idx) :
    k2_pay1 (F := Ideal) x b y = max (x y + b (bB y)) (Ideal.ofBits .f32 0x00000000#32) := by
  unfold k2_pay1
  show max (shapeCast S5000x32 x shapeCasts_S5000x32_S5000x32 y + broadcastTo S5000x32 (shapeCast S1x32 b shapeCasts_S1x32_S1x32) broadcasts_S1x32_S5000x32 y) _ = _
  rw [shapeCast_self, shapeCast_self, broadcastTo_apply b broadcasts_S1x32_S5000x32 y (bB y) (fun a => match a with
    | ⟨0, _⟩ => by show 0 = if (1 : Nat) = 1 then 0 else _; rw [if_pos rfl]
    | ⟨1, _⟩ => by show (y 1).val = if (32 : Nat) = 1 then 0 else (y 1).val; rw [if_neg (by decide)])]
  rfl

/-! ## From blocks to the array -/

theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

theorem idx_onto : ∀ q0 : Fin 10, ∃ t : Fin cfg2.N, win2_2.index t = ![q0.val, 0] :=
  (by decide +kernel : ∀ q0 : Fin 10, ∃ t : Fin grid2.N, win2_2.index t = ![q0.val, 0])

variable (V : (c : Dev nD) → (b : Ref sig .tc) → Buf (Elt Ideal) ((c : Thread nD τ).loc b))

/-- What point t writes back is block t of the output activation of the aggregated array, when the bias operand the
    region finds is the bias vector `B` viewed as one row. -/
theorem flushed_eq (c : Dev nD) (B : Vec Ideal S32 .f32) (hB : (V c main_v61 : Vec Ideal S1x32 .f32) = shapeCast S1x32 B shapeCasts_S32_S1x32) (t : Fin cfg2.N) :
    (dat2 V c).flushed 2 t = ((cfg2.win 2).blk t).view.read (Elt Ideal) (Cert.ReferenceIdeal.Stage.outAct (F := Ideal) (V c main_v60) B) := by
  show (cfg2.win 2).cut (grid2.coords t) ((dat2 V c).after 2 t) = _
  rw [after2_2]
  unfold out2_2
  rw [View.canon_unit_zero hz]
  simp only [View.ld_unit_zero (S := S5000x32) hz, View.ld_unit_zero (S := S1x32) hz]
  obtain ⟨e0, e1, e2, e3, e4, e5⟩ := idx_facts t
  funext j
  show k2_pay1 (F := Ideal) (iblk2 V c 0 t) (iblk2 V c 1 t) j = Cert.ReferenceIdeal.Stage.outAct (F := Ideal) (V c main_v60) B (((cfg2.win 2).blk t).view.emb j)
  rw [pay_apply, Cert.ReferenceIdeal.Stage.outAct_apply]
  have ia : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 32 + 1 * (j 1).val = win2_2.index t (1 : Fin 2) * 32 + 1 * (j 1).val; omega
  have ha : (iblk2 V c 0 t : Vec Ideal S5000x32 .f32) j = (V c main_v60 : Vec Ideal S50000x32 .f32) (((cfg2.win 2).blk t).view.emb j) :=
    congrArg (V c main_v60 : Vec Ideal S50000x32 .f32) ia
  have hb : (iblk2 V c 1 t : Vec Ideal S1x32 .f32) (bB j) = B (Cert.ReferenceIdeal.Read.idx_main_v64 (Cert.ReferenceIdeal.Read.idx_main_v65 (((cfg2.win 2).blk t).view.emb j))) := by
    show (V c main_v61 : Vec Ideal S1x32 .f32) (((cfg2.win 1).blk t).view.emb (bB j)) = _
    rw [hB]
    refine shapeCast_apply B shapeCasts_S32_S1x32 _ _ ?_
    rw [Shape.rowMajor_val_one, Shape.rowMajor_val_two]
    show win2_2.index t (1 : Fin 2) * 32 + 1 * (j 1).val = (win2_1.index t (0 : Fin 2) * 1 + 1 * 0) * 32 + (win2_1.index t (1 : Fin 2) * 32 + 1 * (j 1).val)
    omega
  rw [ha, hb]

theorem mem_blk (t : Fin cfg2.N) (i : S50000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v62).slice (win2_2.rect t)).set ↔ _
  rw [View.set_slice_whole, Rect.mem_set_unit]
  exact Iff.rfl

/-- Row r lies in the block of point r / 5000: the blocks cover the array. -/
theorem cover (i : S50000x32.Idx) : ∃ t : Fin cfg2.N, (cfg2.win 2).flush t = true ∧ i ∈ ((cfg2.win 2).blk t).view.set := by
  have hi0 : (i 0).val < 50000 := (i 0).isLt
  have hi1 : (i 1).val < 32 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- The result array after the region: the output activation of the aggregated array the region finds. -/
theorem final (c : Dev nD) (B : Vec Ideal S32 .f32) (hB : (V c main_v61 : Vec Ideal S1x32 .f32) = shapeCast S1x32 B shapeCasts_S32_S1x32) :
    (dat2 V c).arrAt 2 cfg2.N = Cert.ReferenceIdeal.Stage.outAct (F := Ideal) (V c main_v60) B :=
  (dat2 V c).arrAt_eq_of_cover 2 _ (fun t _ => flushed_eq V c B hB t) cover

end Cert.KernelIdeal.Region2

end
-- ==== Proof.Glue.lean ====
/-
  The kernel program's result array, walked back to the arguments. Between the regions the host operations are the
  reference's own (the edge endpoints, the normalisation, the two rounds of message passing), so each stretch is read
  as the reference's stage of the buffers it starts from; each region leaves its closed form (the first dense
  transform; the hidden activation and the second dense transform; the output activation). Composed, the result
  array holds the reference's network of the seven arguments.
-/
import proofs.«146499_j31370441130066_1_alg».proof.Proof.Gen.KernelIdeal.Frame
import proofs.«146499_j31370441130066_1_alg».proof.Proof.StagesNorm
import proofs.«146499_j31370441130066_1_alg».proof.Proof.LibTRef
import proofs.«146499_j31370441130066_1_alg».proof.Proof.Region0
import proofs.«146499_j31370441130066_1_alg».proof.Proof.Region1
import proofs.«146499_j31370441130066_1_alg».proof.Proof.Region2
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Glue

open Cert.KernelIdeal Cert.KernelIdeal.Gen

variable (m : (ℓ : Loc nD τ sig) → Buf (Elt Ideal) ℓ) (ρ : Dev nD → PrngReg)

/-! ## The first stretch, from the launch: endpoints, weights, the degree's sign and inverse root -/

theorem W1_src (c : Dev nD) : W1 m ρ c (Proc.devRef .tc main_v3) = (Cert.ReferenceIdeal.Stage.srcOf (F := Ideal) (m ((c : Thread nD τ).loc main_arg1))) := by
  dsimp only [W1, W0, hostOps0]
  after_results_simp
  unfold Cert.ReferenceIdeal.Stage.srcOf
  rfl

theorem W1_dst (c : Dev nD) : W1 m ρ c (Proc.devRef .tc main_v6) = (Cert.ReferenceIdeal.Stage.dstOf (F := Ideal) (m ((c : Thread nD τ).loc main_arg1))) := by
  dsimp only [W1, W0, hostOps0]
  after_results_simp
  unfold Cert.ReferenceIdeal.Stage.dstOf
  rfl

theorem W1_ew (c : Dev nD) : W1 m ρ c (Proc.devRef .tc main_v8) = Cert.ReferenceIdeal.Stage.ewOf (F := Ideal) (m ((c : Thread nD τ).loc main_arg2)) := by
  dsimp only [W1, W0, hostOps0]
  after_results_simp
  unfold Cert.ReferenceIdeal.Stage.ewOf
  rfl

/-! ## The call of `_where`: the inverse-root degree -/

/-- A buffer's contents carried to its own type are themselves: the four references the call touches. -/
theorem ofBuf_v13 (X : main_v13.ty.Contents (Elt Ideal)) : (TRef.of main_v13 : TRef sig ⟨S50000, .i1⟩).ofBuf X = X := rfl
theorem ofBuf_v14 (X : main_v14.ty.Contents (Elt Ideal)) : (TRef.of main_v14 : TRef sig ⟨S50000, .f32⟩).ofBuf X = X := rfl
theorem ofBuf_cst_2 (X : main_cst_2.ty.Contents (Elt Ideal)) : (TRef.of main_cst_2 : TRef sig ⟨S_, .f32⟩).ofBuf X = X := rfl
theorem toBuf_v15 (X : (⟨S50000, .f32⟩ : BufTy).Contents (Elt Ideal)) : (TRef.of main_v15 : TRef sig ⟨S50000, .f32⟩).toBuf X = X := rfl

theorem W2_sel (c : Dev nD) :
    W2 m ρ c (Proc.devRef .tc main_v15) = select (W1 m ρ c (Proc.devRef .tc main_v13)) (W1 m ρ c (Proc.devRef .tc main_v14)) (broadcastInDim S50000 ![] bcast_S_S50000 (id (W1 m ρ c (Proc.devRef .tc main_cst_2)))) := by
  dsimp only [W2, hostOps0_1]
  generalize W1 m ρ c = X
  after_results_simp
  simp only [TRef.ofBuf_toBuf]
  rw [toBuf_v15, ofBuf_v13, ofBuf_v14, ofBuf_cst_2]

theorem W2_dinv (c : Dev nD) : W2 m ρ c (Proc.devRef .tc main_v15) = Cert.ReferenceIdeal.Stage.dinvOf (F := Ideal) (Cert.ReferenceIdeal.Stage.degOf (F := Ideal) (Cert.ReferenceIdeal.Stage.dstOf (F := Ideal) (m ((c : Thread nD τ).loc main_arg1))) (Cert.ReferenceIdeal.Stage.ewOf (F := Ideal) (m ((c : Thread nD τ).loc main_arg2)))) := by
  rw [W2_sel]
  dsimp only [W1, W0, hostOps0]
  after_results_simp
  unfold Cert.ReferenceIdeal.Stage.dinvOf Cert.ReferenceIdeal.Stage.degOf Cert.ReferenceIdeal.Stage.dstOf Cert.ReferenceIdeal.Stage.ewOf
  rfl

theorem W2_v3 (c : Dev nD) : W2 m ρ c (Proc.devRef .tc main_v3) = W1 m ρ c (Proc.devRef .tc main_v3) := by
  dsimp only [W2, hostOps0_1]
  generalize W1 m ρ c = X
  after_results_simp

theorem W2_v6 (c : Dev nD) : W2 m ρ c (Proc.devRef .tc main_v6) = W1 m ρ c (Proc.devRef .tc main_v6) := by
  dsimp only [W2, hostOps0_1]
  generalize W1 m ρ c = X
  after_results_simp

theorem W2_v8 (c : Dev nD) : W2 m ρ c (Proc.devRef .tc main_v8) = W1 m ρ c (Proc.devRef .tc main_v8) := by
  dsimp only [W2, hostOps0_1]
  generalize W1 m ρ c = X
  after_results_simp

/-! ## The third stretch: the edge normalisation -/

theorem W3_nf (c : Dev nD) :
    W3 m ρ c (Proc.devRef .tc main_v31) = Cert.ReferenceIdeal.Stage.normFrom (F := Ideal) (W2 m ρ c (Proc.devRef .tc main_v15)) (W2 m ρ c (Proc.devRef .tc main_v3)) (W2 m ρ c (Proc.devRef .tc main_v6)) (W2 m ρ c (Proc.devRef .tc main_v8)) := by
  dsimp only [W3, hostOps0_2]
  generalize W2 m ρ c = X
  after_results_simp
  rfl

theorem W3_v3 (c : Dev nD) : W3 m ρ c (Proc.devRef .tc main_v3) = W2 m ρ c (Proc.devRef .tc main_v3) := by
  dsimp only [W3, hostOps0_2]
  generalize W2 m ρ c = X
  after_results_simp

theorem W3_v6 (c : Dev nD) : W3 m ρ c (Proc.devRef .tc main_v6) = W2 m ρ c (Proc.devRef .tc main_v6) := by
  dsimp only [W3, hostOps0_2]
  generalize W2 m ρ c = X
  after_results_simp

theorem W3_src (c : Dev nD) : W3 m ρ c (Proc.devRef .tc main_v3) = (Cert.ReferenceIdeal.Stage.srcOf (F := Ideal) (m ((c : Thread nD τ).loc main_arg1))) :=
  (W3_v3 m ρ c).trans ((W2_v3 m ρ c).trans (W1_src m ρ c))
theorem W3_dst (c : Dev nD) : W3 m ρ c (Proc.devRef .tc main_v6) = (Cert.ReferenceIdeal.Stage.dstOf (F := Ideal) (m ((c : Thread nD τ).loc main_arg1))) :=
  (W3_v6 m ρ c).trans ((W2_v6 m ρ c).trans (W1_dst m ρ c))
theorem W3_norm (c : Dev nD) : W3 m ρ c (Proc.devRef .tc main_v31) = (Cert.ReferenceIdeal.Stage.normOf (F := Ideal) (Cert.ReferenceIdeal.Stage.srcOf (F := Ideal) (m ((c : Thread nD τ).loc main_arg1))) (Cert.ReferenceIdeal.Stage.dstOf (F := Ideal) (m ((c : Thread nD τ).loc main_arg1))) (m ((c : Thread nD τ).loc main_arg2))) := by
  rw [W3_nf, W2_dinv, W2_v3, W2_v6, W2_v8, W1_src, W1_dst, W1_ew, Cert.ReferenceIdeal.Stage.normOf_eq]

/-! ## The arguments at region 0's entry -/

theorem W3_arg0 (c : Dev nD) : W3 m ρ c (Proc.devRef .tc main_arg0) = (m ((c : Thread nD τ).loc main_arg0)) := by
  dsimp only [W3, W2, W1, W0, hostOps0, hostOps0_1, hostOps0_2]
  after_results_simp

theorem W3_arg3 (c : Dev nD) : W3 m ρ c (Proc.devRef .tc main_arg3) = (m ((c : Thread nD τ).loc main_arg3)) := by
  dsimp only [W3, W2, W1, W0, hostOps0, hostOps0_1, hostOps0_2]
  after_results_simp

theorem W3_arg4 (c : Dev nD) : W3 m ρ c (Proc.devRef .tc main_arg4) = (m ((c : Thread nD τ).loc main_arg4)) := by
  dsimp only [W3, W2, W1, W0, hostOps0, hostOps0_1, hostOps0_2]
  after_results_simp

theorem W3_arg5 (c : Dev nD) : W3 m ρ c (Proc.devRef .tc main_arg5) = (m ((c : Thread nD τ).loc main_arg5)) := by
  dsimp only [W3, W2, W1, W0, hostOps0, hostOps0_1, hostOps0_2]
  after_results_simp

theorem W3_arg6 (c : Dev nD) : W3 m ρ c (Proc.devRef .tc main_arg6) = (m ((c : Thread nD τ).loc main_arg6)) := by
  dsimp only [W3, W2, W1, W0, hostOps0, hostOps0_1, hostOps0_2]
  after_results_simp

/-! ## Region 0 leaves the first dense transform of the arguments; the other buffers stay -/

theorem W4_dense (c : Dev nD) :
    W4 m ρ c (Proc.devRef .tc main_v32) = Cert.ReferenceIdeal.Stage.dense1 (F := Ideal) (m ((c : Thread nD τ).loc main_arg0)) (m ((c : Thread nD τ).loc main_arg3)) := by
  have e0 : V3 m ρ c main_arg0 = (m ((c : Thread nD τ).loc main_arg0)) := W3_arg0 m ρ c
  have e3 : V3 m ρ c main_arg3 = (m ((c : Thread nD τ).loc main_arg3)) := W3_arg3 m ρ c
  have h := Cert.KernelIdeal.Region0.final (V3 m ρ) c
  rw [e0, e3] at h
  exact (W4_arr m ρ c 2).trans h

theorem W4_src (c : Dev nD) : W4 m ρ c (Proc.devRef .tc main_v3) = (Cert.ReferenceIdeal.Stage.srcOf (F := Ideal) (m ((c : Thread nD τ).loc main_arg1))) :=
  (W4_of_ne m ρ c main_v3 (by decide)).trans (W3_src m ρ c)
theorem W4_dst (c : Dev nD) : W4 m ρ c (Proc.devRef .tc main_v6) = (Cert.ReferenceIdeal.Stage.dstOf (F := Ideal) (m ((c : Thread nD τ).loc main_arg1))) :=
  (W4_of_ne m ρ c main_v6 (by decide)).trans (W3_dst m ρ c)
theorem W4_norm (c : Dev nD) : W4 m ρ c (Proc.devRef .tc main_v31) = (Cert.ReferenceIdeal.Stage.normOf (F := Ideal) (Cert.ReferenceIdeal.Stage.srcOf (F := Ideal) (m ((c : Thread nD τ).loc main_arg1))) (Cert.ReferenceIdeal.Stage.dstOf (F := Ideal) (m ((c : Thread nD τ).loc main_arg1))) (m ((c : Thread nD τ).loc main_arg2))) :=
  (W4_of_ne m ρ c main_v31 (by decide)).trans (W3_norm m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)
theorem W4_arg6 (c : Dev nD) : W4 m ρ c (Proc.devRef .tc main_arg6) = (m ((c : Thread nD τ).loc main_arg6)) :=
  (W4_of_ne m ρ c main_arg6 (by decide)).trans (W3_arg6 m ρ c)

/-! ## The stretch between regions 0 and 1: message passing on 64 features, the bias as a row -/

theorem W5_agg (c : Dev nD) :
    W5 m ρ c (Proc.devRef .tc main_v45) = Cert.ReferenceIdeal.Stage.agg64 (F := Ideal) (W4 m ρ c (Proc.devRef .tc main_v32)) (W4 m ρ c (Proc.devRef .tc main_v3)) (W4 m ρ c (Proc.devRef .tc main_v6)) (W4 m ρ c (Proc.devRef .tc main_v31)) := by
  dsimp only [W5, hostOps1]
  after_results_simp
  rfl

theorem W5_bias (c : Dev nD) :
    (W5 m ρ c (Proc.devRef .tc main_v46) : Vec Ideal S1x64 .f32) = shapeCast S1x64 (W4 m ρ c (Proc.devRef .tc main_arg4) : Vec Ideal S64 .f32) shapeCasts_S64_S1x64 := by
  dsimp only [W5, hostOps1]
  after_results_simp
  rfl

theorem W5_arg5 (c : Dev nD) : W5 m ρ c (Proc.devRef .tc main_arg5) = W4 m ρ c (Proc.devRef .tc main_arg5) := by
  dsimp only [W5, hostOps1]
  after_results_simp

theorem W5_v3 (c : Dev nD) : W5 m ρ c (Proc.devRef .tc main_v3) = W4 m ρ c (Proc.devRef .tc main_v3) := by
  dsimp only [W5, hostOps1]
  after_results_simp

theorem W5_v6 (c : Dev nD) : W5 m ρ c (Proc.devRef .tc main_v6) = W4 m ρ c (Proc.devRef .tc main_v6) := by
  dsimp only [W5, hostOps1]
  after_results_simp

theorem W5_v31 (c : Dev nD) : W5 m ρ c (Proc.devRef .tc main_v31) = W4 m ρ c (Proc.devRef .tc main_v31) := by
  dsimp only [W5, hostOps1]
  after_results_simp

theorem W5_arg6 (c : Dev nD) : W5 m ρ c (Proc.devRef .tc main_arg6) = W4 m ρ c (Proc.devRef .tc main_arg6) := by
  dsimp only [W5, hostOps1]
  after_results_simp

/-! ## Region 1 leaves the second dense transform of the hidden activation -/

theorem W6_dense (c : Dev nD) :
    W6 m ρ c (Proc.devRef .tc main_v47) = (Cert.ReferenceIdeal.Stage.dense2 (F := Ideal) (Cert.ReferenceIdeal.Stage.hidden (F := Ideal) (Cert.ReferenceIdeal.Stage.agg64 (F := Ideal) (Cert.ReferenceIdeal.Stage.dense1 (F := Ideal) (m ((c : Thread nD τ).loc main_arg0)) (m ((c : Thread nD τ).loc main_arg3))) (Cert.ReferenceIdeal.Stage.srcOf (F := Ideal) (m ((c : Thread nD τ).loc main_arg1))) (Cert.ReferenceIdeal.Stage.dstOf (F := Ideal) (m ((c : Thread nD τ).loc main_arg1))) (Cert.ReferenceIdeal.Stage.normOf (F := Ideal) (Cert.ReferenceIdeal.Stage.srcOf (F := Ideal) (m ((c : Thread nD τ).loc main_arg1))) (Cert.ReferenceIdeal.Stage.dstOf (F := Ideal) (m ((c : Thread nD τ).loc main_arg1))) (m ((c : Thread nD τ).loc main_arg2)))) (m ((c : Thread nD τ).loc main_arg4))) (m ((c : Thread nD τ).loc main_arg5))) := by
  have hB : (V5 m ρ c main_v46 : Vec Ideal S1x64 .f32) = shapeCast S1x64 (m ((c : Thread nD τ).loc main_arg4)) shapeCasts_S64_S1x64 := by
    have h := W5_bias m ρ c
    rw [W4_arg4] at h
    exact h
  have e45 : V5 m ρ c main_v45 = (Cert.ReferenceIdeal.Stage.agg64 (F := Ideal) (Cert.ReferenceIdeal.Stage.dense1 (F := Ideal) (m ((c : Thread nD τ).loc main_arg0)) (m ((c : Thread nD τ).loc main_arg3))) (Cert.ReferenceIdeal.Stage.srcOf (F := Ideal) (m ((c : Thread nD τ).loc main_arg1))) (Cert.ReferenceIdeal.Stage.dstOf (F := Ideal) (m ((c : Thread nD τ).loc main_arg1))) (Cert.ReferenceIdeal.Stage.normOf (F := Ideal) (Cert.ReferenceIdeal.Stage.srcOf (F := Ideal) (m ((c : Thread nD τ).loc main_arg1))) (Cert.ReferenceIdeal.Stage.dstOf (F := Ideal) (m ((c : Thread nD τ).loc main_arg1))) (m ((c : Thread nD τ).loc main_arg2)))) := by
    have h := W5_agg m ρ c
    rw [W4_dense, W4_src, W4_dst, W4_norm] at h
    exact h
  have e5 : V5 m ρ c main_arg5 = (m ((c : Thread nD τ).loc main_arg5)) := (W5_arg5 m ρ c).trans (W4_arg5 m ρ c)
  have h := Cert.KernelIdeal.Region1.final (V5 m ρ) c (m ((c : Thread nD τ).loc main_arg4)) hB
  rw [e45, e5] at h
  exact (W6_arr m ρ c 3).trans h

theorem W6_src (c : Dev nD) : W6 m ρ c (Proc.devRef .tc main_v3) = (Cert.ReferenceIdeal.Stage.srcOf (F := Ideal) (m ((c : Thread nD τ).loc main_arg1))) :=
  (W6_of_ne m ρ c main_v3 (by decide)).trans ((W5_v3 m ρ c).trans (W4_src m ρ c))
theorem W6_dst (c : Dev nD) : W6 m ρ c (Proc.devRef .tc main_v6) = (Cert.ReferenceIdeal.Stage.dstOf (F := Ideal) (m ((c : Thread nD τ).loc main_arg1))) :=
  (W6_of_ne m ρ c main_v6 (by decide)).trans ((W5_v6 m ρ c).trans (W4_dst m ρ c))
theorem W6_norm (c : Dev nD) : W6 m ρ c (Proc.devRef .tc main_v31) = (Cert.ReferenceIdeal.Stage.normOf (F := Ideal) (Cert.ReferenceIdeal.Stage.srcOf (F := Ideal) (m ((c : Thread nD τ).loc main_arg1))) (Cert.ReferenceIdeal.Stage.dstOf (F := Ideal) (m ((c : Thread nD τ).loc main_arg1))) (m ((c : Thread nD τ).loc main_arg2))) :=
  (W6_of_ne m ρ c main_v31 (by decide)).trans ((W5_v31 m ρ c).trans (W4_norm m ρ c))
theorem W6_arg6 (c : Dev nD) : W6 m ρ c (Proc.devRef .tc main_arg6) = (m ((c : Thread nD τ).loc main_arg6)) :=
  (W6_of_ne m ρ c main_arg6 (by decide)).trans ((W5_arg6 m ρ c).trans (W4_arg6 m ρ c))

/-! ## The stretch between regions 1 and 2: message passing on 32 features, the bias as a row -/

theorem W7_agg (c : Dev nD) :
    W7 m ρ c (Proc.devRef .tc main_v60) = Cert.ReferenceIdeal.Stage.agg32 (F := Ideal) (W6 m ρ c (Proc.devRef .tc main_v47)) (W6 m ρ c (Proc.devRef .tc main_v3)) (W6 m ρ c (Proc.devRef .tc main_v6)) (W6 m ρ c (Proc.devRef .tc main_v31)) := by
  dsimp only [W7, hostOps2]
  after_results_simp
  rfl

theorem W7_bias (c : Dev nD) :
    (W7 m ρ c (Proc.devRef .tc main_v61) : Vec Ideal S1x32 .f32) = shapeCast S1x32 (W6 m ρ c (Proc.devRef .tc main_arg6) : Vec Ideal S32 .f32) shapeCasts_S32_S1x32 := by
  dsimp only [W7, hostOps2]
  after_results_simp
  rfl

/-! ## Region 2 leaves the network's result -/

/-- The result array at the last boundary is the reference's network of the seven arguments. -/
theorem result (c : Dev nD) :
    W8 m ρ c (Proc.devRef .tc main_v62) = Cert.ReferenceIdeal.Stage.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hB : (V7 m ρ c main_v61 : Vec Ideal S1x32 .f32) = shapeCast S1x32 (m ((c : Thread nD τ).loc main_arg6)) shapeCasts_S32_S1x32 := by
    have h := W7_bias m ρ c
    rw [W6_arg6] at h
    exact h
  have e60 : V7 m ρ c main_v60 = (Cert.ReferenceIdeal.Stage.agg32 (F := Ideal) (Cert.ReferenceIdeal.Stage.dense2 (F := Ideal) (Cert.ReferenceIdeal.Stage.hidden (F := Ideal) (Cert.ReferenceIdeal.Stage.agg64 (F := Ideal) (Cert.ReferenceIdeal.Stage.dense1 (F := Ideal) (m ((c : Thread nD τ).loc main_arg0)) (m ((c : Thread nD τ).loc main_arg3))) (Cert.ReferenceIdeal.Stage.srcOf (F := Ideal) (m ((c : Thread nD τ).loc main_arg1))) (Cert.ReferenceIdeal.Stage.dstOf (F := Ideal) (m ((c : Thread nD τ).loc main_arg1))) (Cert.ReferenceIdeal.Stage.normOf (F := Ideal) (Cert.ReferenceIdeal.Stage.srcOf (F := Ideal) (m ((c : Thread nD τ).loc main_arg1))) (Cert.ReferenceIdeal.Stage.dstOf (F := Ideal) (m ((c : Thread nD τ).loc main_arg1))) (m ((c : Thread nD τ).loc main_arg2)))) (m ((c : Thread nD τ).loc main_arg4))) (m ((c : Thread nD τ).loc main_arg5))) (Cert.ReferenceIdeal.Stage.srcOf (F := Ideal) (m ((c : Thread nD τ).loc main_arg1))) (Cert.ReferenceIdeal.Stage.dstOf (F := Ideal) (m ((c : Thread nD τ).loc main_arg1))) (Cert.ReferenceIdeal.Stage.normOf (F := Ideal) (Cert.ReferenceIdeal.Stage.srcOf (F := Ideal) (m ((c : Thread nD τ).loc main_arg1))) (Cert.ReferenceIdeal.Stage.dstOf (F := Ideal) (m ((c : Thread nD τ).loc main_arg1))) (m ((c : Thread nD τ).loc main_arg2)))) := by
    have h := W7_agg m ρ c
    rw [W6_dense, W6_src, W6_dst, W6_norm] at h
    exact h
  have h := Cert.KernelIdeal.Region2.final (V7 m ρ) c (m ((c : Thread nD τ).loc main_arg6)) hB
  rw [e60] at h
  exact (W8_arr m ρ c 2).trans h

end Cert.KernelIdeal.Glue

end
-- ==== Proof.lean ====
/-
  A two-layer graph convolution, z = relu (Â · relu (Â · (x · W1) + b1) · W2 + b2), where Â scatters, for every edge
  and every self loop, the source's row scaled by dinv[src] · w · dinv[dst] into the destination's row.
  The kernel program computes the edge endpoints, the normalisation and both rounds of message passing by the same
  host operations as the reference; only the dense, row-parallel parts run as three pipelined regions over ten blocks
  of 5000 rows: x · W1; relu (· + b1) · W2; relu (· + b2). Over the extended reals a change of float format is the
  identity and a product into a zero accumulator is the plain sum over the contracted axis, so each block is the
  matching block of the reference's stage, the blocks tile the rows, and each region leaves the reference's stage of
  the arrays it finds. The two programs therefore end with one and the same function of the seven arguments
  (`Stage.net`). No finiteness is used: sums are only re-associated, never distributed.
  The three frames are the generated ones (the reference's is its generated run with the result dropped), and the
  idealization rewrote no operation, so `preserves` is trivial.
-/
import proofs.«146499_j31370441130066_1_alg».proof.Defs
import proofs.«146499_j31370441130066_1_alg».proof.Proof.Gen.Kernel
import proofs.«146499_j31370441130066_1_alg».proof.Proof.Gen.Kernel.Skeleton
import proofs.«146499_j31370441130066_1_alg».proof.Proof.Gen.Kernel.Launch
import proofs.«146499_j31370441130066_1_alg».proof.Proof.Gen.Kernel.Points
import proofs.«146499_j31370441130066_1_alg».proof.Proof.Gen.Kernel.Frame
import proofs.«146499_j31370441130066_1_alg».proof.Proof.Gen.KernelIdeal
import proofs.«146499_j31370441130066_1_alg».proof.Proof.Gen.KernelIdeal.Skeleton
import proofs.«146499_j31370441130066_1_alg».proof.Proof.Gen.KernelIdeal.Launch
import proofs.«146499_j31370441130066_1_alg».proof.Proof.Gen.KernelIdeal.Points
import proofs.«146499_j31370441130066_1_alg».proof.Proof.Gen.KernelIdeal.Frame
import proofs.«146499_j31370441130066_1_alg».proof.Proof.Gen.ReferenceIdeal
import proofs.«146499_j31370441130066_1_alg».proof.Proof.Gen.Pre_finite_inputs
import proofs.«146499_j31370441130066_1_alg».proof.Proof.Gen.ReferenceIdeal.Run
import proofs.«146499_j31370441130066_1_alg».proof.Proof.Gen.ReferenceIdeal.Read
import proofs.«146499_j31370441130066_1_alg».proof.Proof.ValueRun
import proofs.«146499_j31370441130066_1_alg».proof.Proof.Stages
import proofs.«146499_j31370441130066_1_alg».proof.Proof.Glue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of their arguments, and the arguments agree. -/
theorem algebraic : Cert.algebraic_KernelIdeal_ReferenceIdeal := by
  intro m ρ m' ρ' _ hagree
  refine ⟨fun c => Cert.KernelIdeal.Gen.W8 m ρ c (Proc.devRef .tc Cert.KernelIdeal.main_v62), Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  have hk := Cert.KernelIdeal.Glue.result m ρ c
  have hr := Cert.ReferenceIdeal.Stage.res_eq (F := Ideal) m' c
  obtain ⟨a0, a1, a2, a3, a4, a5, a6⟩ := hagree c
  rw [a0, a1, a2, a3, a4, a5, a6] at hr
  exact hr.trans hk.symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
